-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S600000 32) (main_arg2 : IVec S600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 76
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S_, .f32⟩
  | .hbm, ⟨52, _⟩ => ⟨S50000x128, .f32⟩
  | .hbm, ⟨53, _⟩ => ⟨S600000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S600000, .i32⟩
  | .hbm, ⟨61, _⟩ => ⟨S600000, .i1⟩
  | .hbm, ⟨62, _⟩ => ⟨S_, .i32⟩
  | .hbm, ⟨63, _⟩ => ⟨S600000, .i32⟩
  | .hbm, ⟨64, _⟩ => ⟨S600000, .i32⟩
  | .hbm, ⟨65, _⟩ => ⟨S600000, .i32⟩
  | .hbm, ⟨66, _⟩ => ⟨S600000x1, .i32⟩
  | .hbm, ⟨67, _⟩ => ⟨S600000x128, .f32⟩
  | .hbm, ⟨68, _⟩ => ⟨S_, .f32⟩
  | .hbm, ⟨69, _⟩ => ⟨S50000x128, .f32⟩
  | .hbm, ⟨70, _⟩ => ⟨S600000x1, .i32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x64, .f32⟩
  | .hbm, ⟨75, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S_, .f32⟩
  | .hbm, ⟨35, _⟩ => ⟨S50000x128, .f32⟩
  | .hbm, ⟨36, _⟩ => ⟨S600000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S600000, .i32⟩
  | .hbm, ⟨75, _⟩ => ⟨S600000, .i1⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S600000x1, .i32⟩
  | .hbm, ⟨81, _⟩ => ⟨S600000x128, .f32⟩
  | .hbm, ⟨82, _⟩ => ⟨S_, .f32⟩
  | .hbm, ⟨83, _⟩ => ⟨S50000x128, .f32⟩
  | .hbm, ⟨84, _⟩ => ⟨S600000x1, .i32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x64, .f32⟩
  | .hbm, ⟨89, _⟩ => ⟨S50000x64, .f32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Combine.lean ====
/-
  The dense "combine" step of a mean-aggregating graph convolution, as ONE function of whole arrays over the
  extended reals. For node features `h`, the mean aggregate `a` of the neighbours' features, the two weight
  matrices and a bias row, the entry at node `r` and output channel `j` is

      Σₖ h[r,k]·W_self[k,j]  +  Σₖ a[r,k]·W_neigh[k,j]  +  b[0,j],

  followed, in the two hidden layers, by the maximum with zero. Two sizes occur: 128 → 128 channels (with the
  maximum) and 128 → 64 (without). Addition and multiplication of extended reals are commutative and
  associative, so each sum over `k` is a `Finset.sum` whatever order a program forms it in; nothing here
  distributes a product over a sum, so no entry has to be finite.
-/
import Idealize.ShloMosaic.PureOps.Ideal
import Idealize.ShloMosaic.Lib.ValueIdx

noncomputable section

open Idealize.ShloMosaic
open scoped BigOperators

namespace Cert.Sage

/-- Node features, 50000 nodes by 128 channels. -/
abbrev Nodes128 : Shape := ⟨2, ![50000, 128]⟩
/-- The last layer's output, 50000 nodes by 64 channels. -/
abbrev Nodes64 : Shape := ⟨2, ![50000, 64]⟩
abbrev Weights128 : Shape := ⟨2, ![128, 128]⟩
abbrev Weights64 : Shape := ⟨2, ![128, 64]⟩
abbrev BiasRow128 : Shape := ⟨2, ![1, 128]⟩
abbrev BiasRow64 : Shape := ⟨2, ![1, 64]⟩

/-! ## The entries one output entry depends on -/

/-- Channel `k` of the node whose row the output entry `i` lies in. -/
abbrev featAt (i : Nodes128.Idx) (k : Fin 128) : Nodes128.Idx := fun a => match a with
  | ⟨0, _⟩ => ⟨(i 0).val, (i 0).isLt⟩
  | ⟨1, _⟩ => ⟨k.val, k.isLt⟩
/-- Row `k` of a weight matrix, in the column of the output entry `i`. -/
abbrev weightAt (i : Nodes128.Idx) (k : Fin 128) : Weights128.Idx := fun a => match a with
  | ⟨0, _⟩ => ⟨k.val, k.isLt⟩
  | ⟨1, _⟩ => ⟨(i 1).val, (i 1).isLt⟩
/-- The bias row's entry in the column of the output entry `i`. -/
abbrev biasAt (i : Nodes128.Idx) : BiasRow128.Idx := fun a => match a with
  | ⟨0, _⟩ => ⟨0, Nat.one_pos⟩
  | ⟨1, _⟩ => ⟨(i 1).val, (i 1).isLt⟩

/-- The same three for the 64-channel output. -/
abbrev featAt64 (i : Nodes64.Idx) (k : Fin 128) : Nodes128.Idx := fun a => match a with
  | ⟨0, _⟩ => ⟨(i 0).val, (i 0).isLt⟩
  | ⟨1, _⟩ => ⟨k.val, k.isLt⟩
abbrev weightAt64 (i : Nodes64.Idx) (k : Fin 128) : Weights64.Idx := fun a => match a with
  | ⟨0, _⟩ => ⟨k.val, k.isLt⟩
  | ⟨1, _⟩ => ⟨(i 1).val, (i 1).isLt⟩
abbrev biasAt64 (i : Nodes64.Idx) : BiasRow64.Idx := fun a => match a with
  | ⟨0, _⟩ => ⟨0, Nat.one_pos⟩
  | ⟨1, _⟩ => ⟨(i 1).val, (i 1).isLt⟩

/-! ## The layers -/

/-- A hidden layer: both products, the bias, then the maximum with zero (the zero kept as its float word: both
    programs spell the same word, so it is never evaluated). -/
def hidden (h a : FVec Ideal Nodes128 .f32) (ws wn : FVec Ideal Weights128 .f32) (b : FVec Ideal BiasRow128 .f32) :
    FVec Ideal Nodes128 .f32 :=
  fun i => max ((∑ k : Fin 128, h (featAt i k) * ws (weightAt i k)) + (∑ k : Fin 128, a (featAt i k) * wn (weightAt i k))
    + b (biasAt i)) (Ideal.ofBits .f32 0x00000000#32)

/-- The output layer: both products and the bias, no maximum. -/
def output (h a : FVec Ideal Nodes128 .f32) (ws wn : FVec Ideal Weights64 .f32) (b : FVec Ideal BiasRow64 .f32) :
    FVec Ideal Nodes64 .f32 :=
  fun i => (∑ k : Fin 128, h (featAt64 i k) * ws (weightAt64 i k)) + (∑ k : Fin 128, a (featAt64 i k) * wn (weightAt64 i k))
    + b (biasAt64 i)

end Cert.Sage

end
-- ==== Proof.Network.lean ====
/-
  The network the kernel's program computes, as a function of @main's twelve arguments.
  Around the three pipelined regions @main runs plain host operations, the same in every layer:
    * `invDegree`: the in-degree of every node (a scatter-add of ones at the edges' targets), raised to at least
      one, inverted, as a column — computed once and used by all three layers;
    * `meanAgg`: the features of every edge's source node gathered (a negative source index wrapped by the node
      count first), scatter-added at the edge's target node, and each node's row scaled by its inverse in-degree;
    * `biasRow`: a bias vector as a one-row matrix.
  These are carried as NAMED functions and never opened: the reference applies the very same operations, so the
  two programs agree on them by the operations' text, whatever a gather or a scatter-add does at any index.
  A layer is then the dense combine step (`Cert.Sage.hidden`, `Cert.Sage.output`) of the previous layer's features
  and their mean aggregate.
-/
import proofs.«109799_j62646392979926_1_alg».proof.Proof.Gen.KernelIdeal
import proofs.«109799_j62646392979926_1_alg».proof.Proof.Combine

noncomputable section

open Idealize.ShloMosaic Idealize.ShloMosaic.TcCoe Idealize.SL.Sem

namespace Cert.KernelIdeal.Net

open Cert.KernelIdeal Cert.KernelIdeal.Gen

section HostChain

variable {F : FTy → Type} [FloatOps F]

/-- One over the in-degree (at least one) of every node, as a column: `1 / max(segment_sum(1, dst), 1)`. -/
def invDegree (dst : (⟨S600000, .i32⟩ : BufTy).Contents (Elt F)) : (⟨S50000x1, .f32⟩ : BufTy).Contents (Elt F) :=
  broadcastInDim S50000x1 ![0] bcast_S50000_S50000x1_0
    (Host.divf (F := F) (broadcastInDim S50000 ![] bcast_S_S50000 (constant (F := F) S_ .f32 0x3F800000#32))
      (maximumf (F := F)
        (Host.scatterAdd (F := F) scatter_S50000_S600000x1_S600000_n_0_0_1
          (broadcastInDim S50000 ![] bcast_S_S50000 (constant (F := F) S_ .f32 0x00000000#32))
          (broadcastInDim S600000x1 ![0] bcast_S600000_S600000x1_0 dst)
          (broadcastInDim S600000 ![] bcast_S_S600000 (constant (F := F) S_ .f32 0x3F800000#32)))
        (broadcastInDim S50000 ![] bcast_S_S50000 (constant (F := F) S_ .f32 0x3F800000#32))))

/-- The mean over every node's in-neighbours of the features `h`: gather at the edges' sources, scatter-add at their
    targets, scale each row by the node's inverse in-degree `dinv`. -/
def meanAgg (h : (⟨S50000x128, .f32⟩ : BufTy).Contents (Elt F)) (src dst : (⟨S600000, .i32⟩ : BufTy).Contents (Elt F)) (dinv : (⟨S50000x1, .f32⟩ : BufTy).Contents (Elt F)) : (⟨S50000x128, .f32⟩ : BufTy).Contents (Elt F) :=
  mulf (F := F)
    (Host.scatterAdd (F := F) scatter_S50000x128_S600000x1_S600000x128_1_0_0_1
      (broadcastInDim S50000x128 ![] bcast_S_S50000x128 (constant (F := F) S_ .f32 0x00000000#32))
      (broadcastInDim S600000x1 ![0] bcast_S600000_S600000x1_0 dst)
      (Host.gather gather_S50000x128_S600000x1_S600000x128_1_0_n_n_0_1_1128 h
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))))
    (broadcastInDim S50000x128 ![0, 1] bcast_S50000x1_S50000x128_0_1 dinv)

/-- A 128-entry bias as a [1, 128] row. -/
def biasRow (b : (⟨S128, .f32⟩ : BufTy).Contents (Elt F)) : (⟨S1x128, .f32⟩ : BufTy).Contents (Elt F) := shapeCast S1x128 b shapeCasts_S128_S1x128
/-- A 64-entry bias as a [1, 64] row. -/
def biasRow64 (b : (⟨S64, .f32⟩ : BufTy).Contents (Elt F)) : (⟨S1x64, .f32⟩ : BufTy).Contents (Elt F) := shapeCast S1x64 b shapeCasts_S64_S1x64

end HostChain

/-! ## The three layers, at the extended reals -/

section Layers

variable (x0 : (⟨S50000x128, .f32⟩ : BufTy).Contents (Elt Ideal)) (x1 x2 : (⟨S600000, .i32⟩ : BufTy).Contents (Elt Ideal))
  (x3 x4 : (⟨S128x128, .f32⟩ : BufTy).Contents (Elt Ideal)) (x5 : (⟨S128, .f32⟩ : BufTy).Contents (Elt Ideal))
  (x6 x7 : (⟨S128x128, .f32⟩ : BufTy).Contents (Elt Ideal)) (x8 : (⟨S128, .f32⟩ : BufTy).Contents (Elt Ideal))
  (x9 x10 : (⟨S128x64, .f32⟩ : BufTy).Contents (Elt Ideal)) (x11 : (⟨S64, .f32⟩ : BufTy).Contents (Elt Ideal))

/-- Layer 0's features: the hidden step on the input features `x0` and their mean aggregate. -/
def feat1 : (⟨S50000x128, .f32⟩ : BufTy).Contents (Elt Ideal) :=
  Cert.Sage.hidden x0 (meanAgg (F := Ideal) x0 x1 x2 (invDegree (F := Ideal) x2)) x3 x4 (biasRow (F := Ideal) x5)

/-- Layer 1's features: the hidden step on layer 0's features and their mean aggregate. -/
def feat2 : (⟨S50000x128, .f32⟩ : BufTy).Contents (Elt Ideal) :=
  Cert.Sage.hidden (feat1 x0 x1 x2 x3 x4 x5) (meanAgg (F := Ideal) (feat1 x0 x1 x2 x3 x4 x5) x1 x2 (invDegree (F := Ideal) x2)) x6 x7 (biasRow (F := Ideal) x8)

/-- The network's output: the output step on layer 1's features and their mean aggregate. -/
def result : (⟨S50000x64, .f32⟩ : BufTy).Contents (Elt Ideal) :=
  Cert.Sage.output (feat2 x0 x1 x2 x3 x4 x5 x6 x7 x8) (meanAgg (F := Ideal) (feat2 x0 x1 x2 x3 x4 x5 x6 x7 x8) x1 x2 (invDegree (F := Ideal) x2)) x9 x10 (biasRow64 (F := Ideal) x11)

end Layers

end Cert.KernelIdeal.Net

end
-- ==== Proof.Layer0.lean ====
/-
  Layer 0 of the network as the pipelined region computes it, at ANY contents `V` the region is entered from.
  The grid has ten points; point `t` stages rows 5000·t … 5000·t + 4999 of the feature array and of the aggregate
  (windows 0 and 1), the two weight matrices and the bias row whole (windows 2, 3, 4), and writes back rows
  5000·t … 5000·t + 4999 of the result (window 5). The body's one store is, entry by entry,
  max(Σₖ x[p,k]·W_self[k,q] + Σₖ y[p,k]·W_neigh[k,q] + b[0,q], 0): each `tpu.matmul` into a zero accumulator is its plain sum over the
  contracted axis, and the narrowing of its operands is the identity on extended reals. Read through the blocks,
  that is block `t` of `Cert.Sage.hidden` of the five arrays; the ten row blocks cover the result array, so it ends
  holding `Cert.Sage.hidden` of them.
-/
import proofs.«109799_j62646392979926_1_alg».proof.Proof.KernelIdealFrame
import proofs.«109799_j62646392979926_1_alg».proof.Proof.Combine
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Layer0

open Cert.KernelIdeal Cert.KernelIdeal.Gen

/-! ## The block's entries one stored entry depends on -/

/-- Column `k` of the block row the stored entry `j` lies in. -/
abbrev rowAt (j : S5000x128.Idx) (k : Fin 128) : S5000x128.Idx := fun a => match a with
  | ⟨0, _⟩ => ⟨(j 0).val, (j 0).isLt⟩
  | ⟨1, _⟩ => ⟨k.val, k.isLt⟩
/-- Row `k` of a weight matrix, in the column of the stored entry `j`. -/
abbrev colAt (j : S5000x128.Idx) (k : Fin 128) : S128x128.Idx := fun a => match a with
  | ⟨0, _⟩ => ⟨k.val, k.isLt⟩
  | ⟨1, _⟩ => ⟨(j 1).val, (j 1).isLt⟩
/-- The bias row's entry in the column of the stored entry `j`. -/
abbrev biasOf (j : S5000x128.Idx) : S1x128.Idx := fun a => match a with
  | ⟨0, _⟩ => ⟨0, Nat.one_pos⟩
  | ⟨1, _⟩ => ⟨(j 1).val, (j 1).isLt⟩

/-! ## The matrix product at an entry: a plain sum over the contracted axis -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a [5000, 128] block with a [128, 128] matrix into the zero accumulator, at entry `j`: the sum over `k`
    of the block's row entry times the matrix's column entry. -/
theorem matmul_at (l : FVec Ideal S5000x128 .bf16) (r : FVec Ideal S128x128 .bf16) (j : S5000x128.Idx) :
    matmul dot_S5000x128_S128x128_S5000x128_1_0_0_1_n_n none l r (constant (F := Ideal) S5000x128 .f32 0x00000000#32) j
      = ∑ k : Fin 128, l (rowAt j k) * r (colAt j k) := by
  show FloatOps.matmul dot_S5000x128_S128x128_S5000x128_1_0_0_1_n_n none l r (constant (F := Ideal) S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt j k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx j ((ValueIdx.contrEquiv1 dot_S5000x128_S128x128_S5000x128_1_0_0_1_n_n 128 rfl rfl).symm k) = colAt j k := funext fun a => Fin.ext (by
    match a with
    | ⟨0, _⟩ => exact (rhs_axis0 _ _).trans hk
    | ⟨1, _⟩ => exact rhs_axis1 _ _)
  rw [el, er]

/-! ## The stored value at an entry -/

/-- The bias row broadcast down the block's rows, at entry `j`: the row's entry in `j`'s column. -/
theorem bias_at (x4 : FVec Ideal S1x128 .f32) (j : S5000x128.Idx) :
    broadcastTo S5000x128 x4 broadcasts_S1x128_S5000x128 j = x4 (biasOf j) := by
  exact broadcastTo_apply x4 broadcasts_S1x128_S5000x128 j (biasOf j) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-- The body's stored value at entry `j` of the block, from the five loaded blocks. -/
theorem pay_at (x0 x1 : FVec Ideal S5000x128 .f32) (x2 x3 : FVec Ideal S128x128 .f32) (x4 : FVec Ideal S1x128 .f32) (j : S5000x128.Idx) :
    k0_pay1 (F := Ideal) x0 x1 x2 x3 x4 j = max ((∑ k : Fin 128, x0 (rowAt j k) * x2 (colAt j k)) + (∑ k : Fin 128, x1 (rowAt j k) * x3 (colAt j k)) + x4 (biasOf j)) (Ideal.ofBits .f32 0x00000000#32) := by
  unfold k0_pay1
  simp only [shapeCast_self]
  refine congrArg₂ max ?_ rfl
  refine congrArg₂ (· + ·) (congrArg₂ (· + ·) ?_ ?_) ?_
  · exact matmul_at _ _ j
  · exact matmul_at _ _ j
  · exact bias_at x4 j

/-! ## The printed index maps, decided over the ten grid points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem hz : (![0, 0] : Fin 2 → Nat) = fun _ => 0 := funext fun a => by fin_cases a <;> rfl

section AtEntryContents

variable (V : (c : Dev nD) → (b : Ref sig .tc) → Buf (Elt Ideal) ((c : Thread nD τ).loc b))

/-- What point `t` writes back is block `t` of the layer's function of the five arrays as the region finds them. -/
theorem flushed_eq (c : Dev nD) (t : Fin cfg0.N) :
    (dat0 V c).flushed 5 t = ((cfg0.win 5).blk t).view.read (Elt Ideal)
      (Cert.Sage.hidden (V c main_arg0) (V c main_v20) (V c main_arg3) (V c main_arg4) (V c main_v21)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine (pay_at (iblk0 V c 0 t) (iblk0 V c 1 t) (iblk0 V c 2 t) (iblk0 V c 3 t) (iblk0 V c 4 t) j).trans ?_
  have hj0 : (j 0).val < 5000 := (j 0).isLt
  have hj1 : (j 1).val < 128 := (j 1).isLt
  -- each input block read where the output's rectangle says
  have h0 : ∀ k : Fin 128, iblk0 V c 0 t (rowAt j k) = V c main_arg0 (Cert.Sage.featAt (((cfg0.win 5).blk t).view.emb j) k) := fun k => by
    show V c main_arg0 (((cfg0.win 0).blk t).view.emb (rowAt j k)) = _
    refine congrArg (V c main_arg0) (funext fun a => Fin.ext ?_)
    have hk : k.val < 128 := k.isLt
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  have h1 : ∀ k : Fin 128, iblk0 V c 1 t (rowAt j k) = V c main_v20 (Cert.Sage.featAt (((cfg0.win 5).blk t).view.emb j) k) := fun k => by
    show V c main_v20 (((cfg0.win 1).blk t).view.emb (rowAt j k)) = _
    refine congrArg (V c main_v20) (funext fun a => Fin.ext ?_)
    have hk : k.val < 128 := k.isLt
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  have h2 : ∀ k : Fin 128, iblk0 V c 2 t (colAt j k) = V c main_arg3 (Cert.Sage.weightAt (((cfg0.win 5).blk t).view.emb j) k) := fun k => by
    show V c main_arg3 (((cfg0.win 2).blk t).view.emb (colAt j k)) = _
    refine congrArg (V c main_arg3) (funext fun a => Fin.ext ?_)
    have hk : k.val < 128 := k.isLt
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have h3 : ∀ k : Fin 128, iblk0 V c 3 t (colAt j k) = V c main_arg4 (Cert.Sage.weightAt (((cfg0.win 5).blk t).view.emb j) k) := fun k => by
    show V c main_arg4 (((cfg0.win 3).blk t).view.emb (colAt j k)) = _
    refine congrArg (V c main_arg4) (funext fun a => Fin.ext ?_)
    have hk : k.val < 128 := k.isLt
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have h4 : iblk0 V c 4 t (biasOf j) = V c main_v21 (Cert.Sage.biasAt (((cfg0.win 5).blk t).view.emb j)) := by
    show V c main_v21 (((cfg0.win 4).blk t).view.emb (biasOf j)) = _
    refine congrArg (V c main_v21) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  simp only [h0, h1, h2, h3, h4]
  rfl

/-- An index of the result array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Every row of the result array lies in the block of the point its index divided by 5000 names. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨e00, e01, e10, e11, e20, e21, e30, e31, e40, e41, e50, e51⟩ := idx_facts ⟨(i 0).val / 5000, by rw [hN]; omega⟩
  refine ⟨⟨(i 0).val / 5000, by rw [hN]; omega⟩, flush0_5 _, ?_⟩
  rw [mem_blk]
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, _⟩ (1 : Fin 2) * 128 ≤ (i 1).val ∧ (i 1).val < win0_5.index ⟨(i 0).val / 5000, _⟩ (1 : Fin 2) * 128 + 128
    rw [e51]; omega

/-- The result array after the region: the layer's function of the five arrays as the region finds them. -/
theorem final (c : Dev nD) :
    (dat0 V c).arrAt 5 cfg0.N
      = Cert.Sage.hidden (V c main_arg0) (V c main_v20) (V c main_arg3) (V c main_arg4) (V c main_v21) :=
  (dat0 V c).arrAt_eq_of_cover 5 _ (fun t _ => flushed_eq V c t) cover

end AtEntryContents

end Cert.KernelIdeal.Layer0

end
-- ==== Proof.Layer1.lean ====
/-
  Layer 1 of the network as the pipelined region computes it, at ANY contents `V` the region is entered from.
  The grid has ten points; point `t` stages rows 5000·t … 5000·t + 4999 of the feature array and of the aggregate
  (windows 0 and 1), the two weight matrices and the bias row whole (windows 2, 3, 4), and writes back rows
  5000·t … 5000·t + 4999 of the result (window 5). The body's one store is, entry by entry,
  max(Σₖ x[p,k]·W_self[k,q] + Σₖ y[p,k]·W_neigh[k,q] + b[0,q], 0): each `tpu.matmul` into a zero accumulator is its plain sum over the
  contracted axis, and the narrowing of its operands is the identity on extended reals. Read through the blocks,
  that is block `t` of `Cert.Sage.hidden` of the five arrays; the ten row blocks cover the result array, so it ends
  holding `Cert.Sage.hidden` of them.
-/
import proofs.«109799_j62646392979926_1_alg».proof.Proof.KernelIdealFrame
import proofs.«109799_j62646392979926_1_alg».proof.Proof.Combine
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Layer1

open Cert.KernelIdeal Cert.KernelIdeal.Gen

/-! ## The block's entries one stored entry depends on -/

/-- Column `k` of the block row the stored entry `j` lies in. -/
abbrev rowAt (j : S5000x128.Idx) (k : Fin 128) : S5000x128.Idx := fun a => match a with
  | ⟨0, _⟩ => ⟨(j 0).val, (j 0).isLt⟩
  | ⟨1, _⟩ => ⟨k.val, k.isLt⟩
/-- Row `k` of a weight matrix, in the column of the stored entry `j`. -/
abbrev colAt (j : S5000x128.Idx) (k : Fin 128) : S128x128.Idx := fun a => match a with
  | ⟨0, _⟩ => ⟨k.val, k.isLt⟩
  | ⟨1, _⟩ => ⟨(j 1).val, (j 1).isLt⟩
/-- The bias row's entry in the column of the stored entry `j`. -/
abbrev biasOf (j : S5000x128.Idx) : S1x128.Idx := fun a => match a with
  | ⟨0, _⟩ => ⟨0, Nat.one_pos⟩
  | ⟨1, _⟩ => ⟨(j 1).val, (j 1).isLt⟩

/-! ## The matrix product at an entry: a plain sum over the contracted axis -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a [5000, 128] block with a [128, 128] matrix into the zero accumulator, at entry `j`: the sum over `k`
    of the block's row entry times the matrix's column entry. -/
theorem matmul_at (l : FVec Ideal S5000x128 .bf16) (r : FVec Ideal S128x128 .bf16) (j : S5000x128.Idx) :
    matmul dot_S5000x128_S128x128_S5000x128_1_0_0_1_n_n none l r (constant (F := Ideal) S5000x128 .f32 0x00000000#32) j
      = ∑ k : Fin 128, l (rowAt j k) * r (colAt j k) := by
  show FloatOps.matmul dot_S5000x128_S128x128_S5000x128_1_0_0_1_n_n none l r (constant (F := Ideal) S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt j k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx j ((ValueIdx.contrEquiv1 dot_S5000x128_S128x128_S5000x128_1_0_0_1_n_n 128 rfl rfl).symm k) = colAt j k := funext fun a => Fin.ext (by
    match a with
    | ⟨0, _⟩ => exact (rhs_axis0 _ _).trans hk
    | ⟨1, _⟩ => exact rhs_axis1 _ _)
  rw [el, er]

/-! ## The stored value at an entry -/

/-- The bias row broadcast down the block's rows, at entry `j`: the row's entry in `j`'s column. -/
theorem bias_at (x4 : FVec Ideal S1x128 .f32) (j : S5000x128.Idx) :
    broadcastTo S5000x128 x4 broadcasts_S1x128_S5000x128 j = x4 (biasOf j) := by
  exact broadcastTo_apply x4 broadcasts_S1x128_S5000x128 j (biasOf j) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-- The body's stored value at entry `j` of the block, from the five loaded blocks. -/
theorem pay_at (x0 x1 : FVec Ideal S5000x128 .f32) (x2 x3 : FVec Ideal S128x128 .f32) (x4 : FVec Ideal S1x128 .f32) (j : S5000x128.Idx) :
    k1_pay1 (F := Ideal) x0 x1 x2 x3 x4 j = max ((∑ k : Fin 128, x0 (rowAt j k) * x2 (colAt j k)) + (∑ k : Fin 128, x1 (rowAt j k) * x3 (colAt j k)) + x4 (biasOf j)) (Ideal.ofBits .f32 0x00000000#32) := by
  unfold k1_pay1
  simp only [shapeCast_self]
  refine congrArg₂ max ?_ rfl
  refine congrArg₂ (· + ·) (congrArg₂ (· + ·) ?_ ?_) ?_
  · exact matmul_at _ _ j
  · exact matmul_at _ _ j
  · exact bias_at x4 j

/-! ## The printed index maps, decided over the ten grid points -/

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem hz : (![0, 0] : Fin 2 → Nat) = fun _ => 0 := funext fun a => by fin_cases a <;> rfl

section AtEntryContents

variable (V : (c : Dev nD) → (b : Ref sig .tc) → Buf (Elt Ideal) ((c : Thread nD τ).loc b))

/-- What point `t` writes back is block `t` of the layer's function of the five arrays as the region finds them. -/
theorem flushed_eq (c : Dev nD) (t : Fin cfg1.N) :
    (dat1 V c).flushed 5 t = ((cfg1.win 5).blk t).view.read (Elt Ideal)
      (Cert.Sage.hidden (V c main_v22) (V c main_v34) (V c main_arg6) (V c main_arg7) (V c main_v35)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  refine (pay_at (iblk1 V c 0 t) (iblk1 V c 1 t) (iblk1 V c 2 t) (iblk1 V c 3 t) (iblk1 V c 4 t) j).trans ?_
  have hj0 : (j 0).val < 5000 := (j 0).isLt
  have hj1 : (j 1).val < 128 := (j 1).isLt
  -- each input block read where the output's rectangle says
  have h0 : ∀ k : Fin 128, iblk1 V c 0 t (rowAt j k) = V c main_v22 (Cert.Sage.featAt (((cfg1.win 5).blk t).view.emb j) k) := fun k => by
    show V c main_v22 (((cfg1.win 0).blk t).view.emb (rowAt j k)) = _
    refine congrArg (V c main_v22) (funext fun a => Fin.ext ?_)
    have hk : k.val < 128 := k.isLt
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  have h1 : ∀ k : Fin 128, iblk1 V c 1 t (rowAt j k) = V c main_v34 (Cert.Sage.featAt (((cfg1.win 5).blk t).view.emb j) k) := fun k => by
    show V c main_v34 (((cfg1.win 1).blk t).view.emb (rowAt j k)) = _
    refine congrArg (V c main_v34) (funext fun a => Fin.ext ?_)
    have hk : k.val < 128 := k.isLt
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  have h2 : ∀ k : Fin 128, iblk1 V c 2 t (colAt j k) = V c main_arg6 (Cert.Sage.weightAt (((cfg1.win 5).blk t).view.emb j) k) := fun k => by
    show V c main_arg6 (((cfg1.win 2).blk t).view.emb (colAt j k)) = _
    refine congrArg (V c main_arg6) (funext fun a => Fin.ext ?_)
    have hk : k.val < 128 := k.isLt
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  have h3 : ∀ k : Fin 128, iblk1 V c 3 t (colAt j k) = V c main_arg7 (Cert.Sage.weightAt (((cfg1.win 5).blk t).view.emb j) k) := fun k => by
    show V c main_arg7 (((cfg1.win 3).blk t).view.emb (colAt j k)) = _
    refine congrArg (V c main_arg7) (funext fun a => Fin.ext ?_)
    have hk : k.val < 128 := k.isLt
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  have h4 : iblk1 V c 4 t (biasOf j) = V c main_v35 (Cert.Sage.biasAt (((cfg1.win 5).blk t).view.emb j)) := by
    show V c main_v35 (((cfg1.win 4).blk t).view.emb (biasOf j)) = _
    refine congrArg (V c main_v35) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  simp only [h0, h1, h2, h3, h4]
  rfl

/-- An index of the result array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v36).slice (win1_5.rect t)).set ↔ _
  rw [View.set_slice_whole, Rect.mem_set_unit]
  exact Iff.rfl

/-- Every row of the result array lies in the block of the point its index divided by 5000 names. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨e00, e01, e10, e11, e20, e21, e30, e31, e40, e41, e50, e51⟩ := idx_facts ⟨(i 0).val / 5000, by rw [hN]; omega⟩
  refine ⟨⟨(i 0).val / 5000, by rw [hN]; omega⟩, flush1_5 _, ?_⟩
  rw [mem_blk]
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e51]; omega

/-- The result array after the region: the layer's function of the five arrays as the region finds them. -/
theorem final (c : Dev nD) :
    (dat1 V c).arrAt 5 cfg1.N
      = Cert.Sage.hidden (V c main_v22) (V c main_v34) (V c main_arg6) (V c main_arg7) (V c main_v35) :=
  (dat1 V c).arrAt_eq_of_cover 5 _ (fun t _ => flushed_eq V c t) cover

end AtEntryContents

end Cert.KernelIdeal.Layer1

end
-- ==== Proof.Layer2.lean ====
/-
  Layer 2 of the network as the pipelined region computes it, at ANY contents `V` the region is entered from.
  The grid has ten points; point `t` stages rows 5000·t … 5000·t + 4999 of the feature array and of the aggregate
  (windows 0 and 1), the two weight matrices and the bias row whole (windows 2, 3, 4), and writes back rows
  5000·t … 5000·t + 4999 of the result (window 5). The body's one store is, entry by entry,
  Σₖ x[p,k]·W_self[k,q] + Σₖ y[p,k]·W_neigh[k,q] + b[0,q]: each `tpu.matmul` into a zero accumulator is its plain sum over the
  contracted axis, and the narrowing of its operands is the identity on extended reals. Read through the blocks,
  that is block `t` of `Cert.Sage.output` of the five arrays; the ten row blocks cover the result array, so it ends
  holding `Cert.Sage.output` of them.
-/
import proofs.«109799_j62646392979926_1_alg».proof.Proof.KernelIdealFrame
import proofs.«109799_j62646392979926_1_alg».proof.Proof.Combine
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open scoped BigOperators

namespace Cert.KernelIdeal.Layer2

open Cert.KernelIdeal Cert.KernelIdeal.Gen

/-! ## The block's entries one stored entry depends on -/

/-- Column `k` of the block row the stored entry `j` lies in. -/
abbrev rowAt (j : S5000x64.Idx) (k : Fin 128) : S5000x128.Idx := fun a => match a with
  | ⟨0, _⟩ => ⟨(j 0).val, (j 0).isLt⟩
  | ⟨1, _⟩ => ⟨k.val, k.isLt⟩
/-- Row `k` of a weight matrix, in the column of the stored entry `j`. -/
abbrev colAt (j : S5000x64.Idx) (k : Fin 128) : S128x64.Idx := fun a => match a with
  | ⟨0, _⟩ => ⟨k.val, k.isLt⟩
  | ⟨1, _⟩ => ⟨(j 1).val, (j 1).isLt⟩
/-- The bias row's entry in the column of the stored entry `j`. -/
abbrev biasOf (j : S5000x64.Idx) : S1x64.Idx := fun a => match a with
  | ⟨0, _⟩ => ⟨0, Nat.one_pos⟩
  | ⟨1, _⟩ => ⟨(j 1).val, (j 1).isLt⟩

/-! ## The matrix product at an entry: a plain sum over the contracted axis -/

theorem lhs_axis0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_axis0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_axis1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A product of a [5000, 128] block with a [128, 64] matrix into the zero accumulator, at entry `j`: the sum over `k`
    of the block's row entry times the matrix's column entry. -/
theorem matmul_at (l : FVec Ideal S5000x128 .bf16) (r : FVec Ideal S128x64 .bf16) (j : S5000x64.Idx) :
    matmul dot_S5000x128_S128x64_S5000x64_1_0_0_1_n_n none l r (constant (F := Ideal) S5000x64 .f32 0x00000000#32) j
      = ∑ k : Fin 128, l (rowAt j k) * r (colAt j k) := by
  show FloatOps.matmul dot_S5000x128_S128x64_S5000x64_1_0_0_1_n_n none l r (constant (F := Ideal) S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = rowAt j k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx j ((ValueIdx.contrEquiv1 dot_S5000x128_S128x64_S5000x64_1_0_0_1_n_n 128 rfl rfl).symm k) = colAt j k := funext fun a => Fin.ext (by
    match a with
    | ⟨0, _⟩ => exact (rhs_axis0 _ _).trans hk
    | ⟨1, _⟩ => exact rhs_axis1 _ _)
  rw [el, er]

/-! ## The stored value at an entry -/

/-- The bias row broadcast down the block's rows, at entry `j`: the row's entry in `j`'s column. -/
theorem bias_at (x4 : FVec Ideal S1x64 .f32) (j : S5000x64.Idx) :
    broadcastTo S5000x64 x4 broadcasts_S1x64_S5000x64 j = x4 (biasOf j) := by
  exact broadcastTo_apply x4 broadcasts_S1x64_S5000x64 j (biasOf j) (fun a => match a with
    | ⟨0, _⟩ => by show 0 = if (1 : Nat) = 1 then 0 else _; rw [if_pos rfl]
    | ⟨1, _⟩ => by show (j 1).val = if (64 : Nat) = 1 then 0 else (j 1).val; rw [if_neg (by decide)])

/-- The body's stored value at entry `j` of the block, from the five loaded blocks. -/
theorem pay_at (x0 x1 : FVec Ideal S5000x128 .f32) (x2 x3 : FVec Ideal S128x64 .f32) (x4 : FVec Ideal S1x64 .f32) (j : S5000x64.Idx) :
    k2_pay1 (F := Ideal) x0 x1 x2 x3 x4 j = (∑ k : Fin 128, x0 (rowAt j k) * x2 (colAt j k)) + (∑ k : Fin 128, x1 (rowAt j k) * x3 (colAt j k)) + x4 (biasOf j) := by
  unfold k2_pay1
  simp only [shapeCast_self]

  refine congrArg₂ (· + ·) (congrArg₂ (· + ·) ?_ ?_) ?_
  · exact matmul_at _ _ j
  · exact matmul_at _ _ j
  · exact bias_at x4 j

/-! ## The printed index maps, decided over the ten grid points -/

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem hz : (![0, 0] : Fin 2 → Nat) = fun _ => 0 := funext fun a => by fin_cases a <;> rfl

section AtEntryContents

variable (V : (c : Dev nD) → (b : Ref sig .tc) → Buf (Elt Ideal) ((c : Thread nD τ).loc b))

/-- What point `t` writes back is block `t` of the layer's function of the five arrays as the region finds them. -/
theorem flushed_eq (c : Dev nD) (t : Fin cfg2.N) :
    (dat2 V c).flushed 5 t = ((cfg2.win 5).blk t).view.read (Elt Ideal)
      (Cert.Sage.output (V c main_v36) (V c main_v48) (V c main_arg9) (V c main_arg10) (V c main_v49)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx_facts t
  funext j
  refine (pay_at (iblk2 V c 0 t) (iblk2 V c 1 t) (iblk2 V c 2 t) (iblk2 V c 3 t) (iblk2 V c 4 t) j).trans ?_
  have hj0 : (j 0).val < 5000 := (j 0).isLt
  have hj1 : (j 1).val < 64 := (j 1).isLt
  -- each input block read where the output's rectangle says
  have h0 : ∀ k : Fin 128, iblk2 V c 0 t (rowAt j k) = V c main_v36 (Cert.Sage.featAt64 (((cfg2.win 5).blk t).view.emb j) k) := fun k => by
    show V c main_v36 (((cfg2.win 0).blk t).view.emb (rowAt j k)) = _
    refine congrArg (V c main_v36) (funext fun a => Fin.ext ?_)
    have hk : k.val < 128 := k.isLt
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  have h1 : ∀ k : Fin 128, iblk2 V c 1 t (rowAt j k) = V c main_v48 (Cert.Sage.featAt64 (((cfg2.win 5).blk t).view.emb j) k) := fun k => by
    show V c main_v48 (((cfg2.win 1).blk t).view.emb (rowAt j k)) = _
    refine congrArg (V c main_v48) (funext fun a => Fin.ext ?_)
    have hk : k.val < 128 := k.isLt
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  have h2 : ∀ k : Fin 128, iblk2 V c 2 t (colAt j k) = V c main_arg9 (Cert.Sage.weightAt64 (((cfg2.win 5).blk t).view.emb j) k) := fun k => by
    show V c main_arg9 (((cfg2.win 2).blk t).view.emb (colAt j k)) = _
    refine congrArg (V c main_arg9) (funext fun a => Fin.ext ?_)
    have hk : k.val < 128 := k.isLt
    match a with
    | ⟨0, _⟩ => show win2_2.index t (0 : Fin 2) * 128 + 1 * k.val = k.val; omega
    | ⟨1, _⟩ => show win2_2.index t (1 : Fin 2) * 64 + 1 * (j 1).val = win2_5.index t (1 : Fin 2) * 64 + 1 * (j 1).val; omega
  have h3 : ∀ k : Fin 128, iblk2 V c 3 t (colAt j k) = V c main_arg10 (Cert.Sage.weightAt64 (((cfg2.win 5).blk t).view.emb j) k) := fun k => by
    show V c main_arg10 (((cfg2.win 3).blk t).view.emb (colAt j k)) = _
    refine congrArg (V c main_arg10) (funext fun a => Fin.ext ?_)
    have hk : k.val < 128 := k.isLt
    match a with
    | ⟨0, _⟩ => show win2_3.index t (0 : Fin 2) * 128 + 1 * k.val = k.val; omega
    | ⟨1, _⟩ => show win2_3.index t (1 : Fin 2) * 64 + 1 * (j 1).val = win2_5.index t (1 : Fin 2) * 64 + 1 * (j 1).val; omega
  have h4 : iblk2 V c 4 t (biasOf j) = V c main_v49 (Cert.Sage.biasAt64 (((cfg2.win 5).blk t).view.emb j)) := by
    show V c main_v49 (((cfg2.win 4).blk t).view.emb (biasOf j)) = _
    refine congrArg (V c main_v49) (funext fun a => Fin.ext ?_)
    match a with
    | ⟨0, _⟩ => show win2_4.index t (0 : Fin 2) * 1 + 1 * 0 = 0; omega
    | ⟨1, _⟩ => show win2_4.index t (1 : Fin 2) * 64 + 1 * (j 1).val = win2_5.index t (1 : Fin 2) * 64 + 1 * (j 1).val; omega
  simp only [h0, h1, h2, h3, h4]
  rfl

/-- An index of the result array is in point `t`'s block iff each coordinate is in the block's range on its axis. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v50).slice (win2_5.rect t)).set ↔ _
  rw [View.set_slice_whole, Rect.mem_set_unit]
  exact Iff.rfl

/-- Every row of the result array lies in the block of the point its index divided by 5000 names. -/
theorem cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  obtain ⟨e00, e01, e10, e11, e20, e21, e30, e31, e40, e41, e50, e51⟩ := idx_facts ⟨(i 0).val / 5000, by rw [hN]; omega⟩
  refine ⟨⟨(i 0).val / 5000, by rw [hN]; omega⟩, flush2_5 _, ?_⟩
  rw [mem_blk]
  intro a
  match a with
  | ⟨0, _⟩ =>
    show win2_5.index ⟨(i 0).val / 5000, _⟩ (0 : Fin 2) * 5000 ≤ (i 0).val ∧ (i 0).val < win2_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, _⟩ (1 : Fin 2) * 64 ≤ (i 1).val ∧ (i 1).val < win2_5.index ⟨(i 0).val / 5000, _⟩ (1 : Fin 2) * 64 + 64
    rw [e51]; omega

/-- The result array after the region: the layer's function of the five arrays as the region finds them. -/
theorem final (c : Dev nD) :
    (dat2 V c).arrAt 5 cfg2.N
      = Cert.Sage.output (V c main_v36) (V c main_v48) (V c main_arg9) (V c main_arg10) (V c main_v49) :=
  (dat2 V c).arrAt_eq_of_cover 5 _ (fun t _ => flushed_eq V c t) cover

end AtEntryContents

end Cert.KernelIdeal.Layer2

end
-- ==== Proof.Walk.lean ====
/-
  Walking @main's buffer contents from the launch to the return. The contents at the boundaries between @main's
  segments are a fold: `W1` after the first host stretch, `W2` after region 0, `W3` after the second stretch, `W4`
  after region 1, `W5` after the third stretch, `W6` after region 2. Read at the buffers that matter:
    * an argument of @main is written by nothing, so it holds its launch contents at every boundary;
    * the inverse in-degree column is computed by the first stretch and written by nothing after it;
    * each stretch leaves the mean aggregate of the features it finds and the layer's bias as a row;
    * each region leaves its layer's function of the five arrays it stages (`Layer0.final`, `Layer1.final`,
      `Layer2.final`), and every buffer that is not one of its arrays as it was.
  Composed: the result array ends holding `Net.result` of the twelve arguments.
-/
import proofs.«109799_j62646392979926_1_alg».proof.Proof.KernelIdealFrame
import proofs.«109799_j62646392979926_1_alg».proof.Proof.Network
import proofs.«109799_j62646392979926_1_alg».proof.Proof.Layer0
import proofs.«109799_j62646392979926_1_alg».proof.Proof.Layer1
import proofs.«109799_j62646392979926_1_alg».proof.Proof.Layer2
import Idealize.ShloMosaic.Lib.StableHlo.Run

set_option maxRecDepth 16384
-- reading a host stretch of 29 operations at a buffer is one simp pass over the stretch; the default budget is too small for it
set_option maxHeartbeats 4000000

noncomputable section

open Idealize.ShloMosaic Idealize.ShloMosaic.TcCoe Idealize.SL.Sem Idealize.ShloMosaic.StableHlo

namespace Cert.KernelIdeal.Walk

open Cert.KernelIdeal Cert.KernelIdeal.Gen Cert.KernelIdeal.Net

/-! ## The host stretches and the regions' exits, at any float family -/

section Fold

variable {F : FTy → Type} [FloatOps F]
variable (m : (ℓ : Loc nD τ sig) → Buf (Elt F) ℓ) (ρ : Dev nD → PrngReg) (c : Dev nD)

/-- @main's arguments. -/
abbrev argRefs : List (Ref sig .tc) :=
  [main_arg0, main_arg1, main_arg2, main_arg3, main_arg4, main_arg5, main_arg6, main_arg7, main_arg8, main_arg9, main_arg10, main_arg11]
/-- The arguments region 0 does not stage. -/
abbrev argRefsAfter0 : List (Ref sig .tc) :=
  [main_arg1, main_arg2, main_arg6, main_arg7, main_arg8, main_arg9, main_arg10, main_arg11]
/-- The arguments neither region 0 nor region 1 stages. -/
abbrev argRefsAfter1 : List (Ref sig .tc) :=
  [main_arg1, main_arg2, main_arg9, main_arg10, main_arg11]

/-- After the first host stretch every argument holds its launch contents. -/
theorem arg_at1 (b : Ref sig .tc) (hb : b ∈ argRefs) : W1 m ρ c (Proc.devRef .tc b) = m ((c : Thread nD τ).loc b) := by
  simp only [argRefs, List.mem_cons, List.not_mem_nil, or_false] at hb
  rcases hb with rfl | rfl | rfl | rfl | rfl | rfl | rfl | rfl | rfl | rfl | rfl | rfl <;>
    (show StableHlo.after hostOps0 (W0 m ρ c) _ = _; after_results_simp <;> rfl)

/-- The first stretch leaves the inverse in-degree column, -/
theorem dinv_at1 : W1 m ρ c (Proc.devRef .tc main_v8) = invDegree (m ((c : Thread nD τ).loc main_arg2)) := by
  show StableHlo.after hostOps0 (W0 m ρ c) _ = _; after_results_simp <;> rfl
/-- the mean aggregate of the input features, -/
theorem agg_at1 : W1 m ρ c (Proc.devRef .tc main_v20)
    = meanAgg (m ((c : Thread nD τ).loc main_arg0)) (m ((c : Thread nD τ).loc main_arg1)) (m ((c : Thread nD τ).loc main_arg2)) (invDegree (m ((c : Thread nD τ).loc main_arg2))) := by
  show StableHlo.after hostOps0 (W0 m ρ c) _ = _; after_results_simp <;> rfl
/-- and layer 0's bias as a row. -/
theorem bias_at1 : W1 m ρ c (Proc.devRef .tc main_v21) = biasRow (m ((c : Thread nD τ).loc main_arg5)) := by
  show StableHlo.after hostOps0 (W0 m ρ c) _ = _; after_results_simp <;> rfl

/-- Region 0 writes none of the arguments it does not stage, nor the inverse in-degree column. -/
theorem arg_at2 (b : Ref sig .tc) (hb : b ∈ argRefsAfter0) : W2 m ρ c (Proc.devRef .tc b) = m ((c : Thread nD τ).loc b) := by
  simp only [argRefsAfter0, List.mem_cons, List.not_mem_nil, or_false] at hb
  rcases hb with rfl | rfl | rfl | rfl | rfl | rfl | rfl | rfl <;>
    exact (W2_of_ne m ρ c _ (by decide)).trans (arg_at1 m ρ c _ (by decide))
theorem dinv_at2 : W2 m ρ c (Proc.devRef .tc main_v8) = invDegree (m ((c : Thread nD τ).loc main_arg2)) :=
  (W2_of_ne m ρ c _ (by decide)).trans (dinv_at1 m ρ c)

/-- The second host stretch writes no argument, nor the inverse in-degree column, nor layer 0's features. -/
theorem arg_at3 (b : Ref sig .tc) (hb : b ∈ argRefsAfter0) : W3 m ρ c (Proc.devRef .tc b) = m ((c : Thread nD τ).loc b) := by
  simp only [argRefsAfter0, List.mem_cons, List.not_mem_nil, or_false] at hb
  rcases hb with rfl | rfl | rfl | rfl | rfl | rfl | rfl | rfl <;>
    exact (show StableHlo.after hostOps1 (W2 m ρ c) _ = W2 m ρ c _ by after_results_simp).trans (arg_at2 m ρ c _ (by decide))
theorem dinv_at3 : W3 m ρ c (Proc.devRef .tc main_v8) = invDegree (m ((c : Thread nD τ).loc main_arg2)) :=
  (show StableHlo.after hostOps1 (W2 m ρ c) _ = W2 m ρ c _ by after_results_simp).trans (dinv_at2 m ρ c)
theorem feat_at3 : W3 m ρ c (Proc.devRef .tc main_v22) = W2 m ρ c (Proc.devRef .tc main_v22) := by
  show StableHlo.after hostOps1 (W2 m ρ c) _ = _; after_results_simp
/-- It leaves the mean aggregate of layer 0's features and layer 1's bias as a row. -/
theorem agg_at3 : W3 m ρ c (Proc.devRef .tc main_v34)
    = meanAgg (W2 m ρ c (Proc.devRef .tc main_v22)) (W2 m ρ c (Proc.devRef .tc main_arg1)) (W2 m ρ c (Proc.devRef .tc main_arg2)) (W2 m ρ c (Proc.devRef .tc main_v8)) := by
  show StableHlo.after hostOps1 (W2 m ρ c) _ = _; after_results_simp <;> rfl
theorem bias_at3 : W3 m ρ c (Proc.devRef .tc main_v35) = biasRow (W2 m ρ c (Proc.devRef .tc main_arg8)) := by
  show StableHlo.after hostOps1 (W2 m ρ c) _ = _; after_results_simp <;> rfl

/-- Region 1 writes none of the arguments it does not stage, nor the inverse in-degree column. -/
theorem arg_at4 (b : Ref sig .tc) (hb : b ∈ argRefsAfter1) : W4 m ρ c (Proc.devRef .tc b) = m ((c : Thread nD τ).loc b) := by
  simp only [argRefsAfter1, List.mem_cons, List.not_mem_nil, or_false] at hb
  rcases hb with rfl | rfl | rfl | rfl | rfl <;>
    exact (W4_of_ne m ρ c _ (by decide)).trans (arg_at3 m ρ c _ (by decide))
theorem dinv_at4 : W4 m ρ c (Proc.devRef .tc main_v8) = invDegree (m ((c : Thread nD τ).loc main_arg2)) :=
  (W4_of_ne m ρ c _ (by decide)).trans (dinv_at3 m ρ c)

/-- The third host stretch writes no argument, nor layer 1's features. -/
theorem arg_at5 (b : Ref sig .tc) (hb : b ∈ argRefsAfter1) : W5 m ρ c (Proc.devRef .tc b) = m ((c : Thread nD τ).loc b) := by
  simp only [argRefsAfter1, List.mem_cons, List.not_mem_nil, or_false] at hb
  rcases hb with rfl | rfl | rfl | rfl | rfl <;>
    exact (show StableHlo.after hostOps2 (W4 m ρ c) _ = W4 m ρ c _ by after_results_simp).trans (arg_at4 m ρ c _ (by decide))
theorem feat_at5 : W5 m ρ c (Proc.devRef .tc main_v36) = W4 m ρ c (Proc.devRef .tc main_v36) := by
  show StableHlo.after hostOps2 (W4 m ρ c) _ = _; after_results_simp
/-- It leaves the mean aggregate of layer 1's features and layer 2's bias as a row. -/
theorem agg_at5 : W5 m ρ c (Proc.devRef .tc main_v48)
    = meanAgg (W4 m ρ c (Proc.devRef .tc main_v36)) (W4 m ρ c (Proc.devRef .tc main_arg1)) (W4 m ρ c (Proc.devRef .tc main_arg2)) (W4 m ρ c (Proc.devRef .tc main_v8)) := by
  show StableHlo.after hostOps2 (W4 m ρ c) _ = _; after_results_simp <;> rfl
theorem bias_at5 : W5 m ρ c (Proc.devRef .tc main_v49) = biasRow64 (W4 m ρ c (Proc.devRef .tc main_arg11)) := by
  show StableHlo.after hostOps2 (W4 m ρ c) _ = _; after_results_simp <;> rfl

end Fold

/-! ## The values, at the extended reals -/

section Values

variable (m : (ℓ : Loc nD τ sig) → Buf (Elt Ideal) ℓ) (ρ : Dev nD → PrngReg) (c : Dev nD)

/-- Region 0 leaves layer 0's features. -/
theorem feat1_eq : W2 m ρ c (Proc.devRef .tc main_v22)
    = feat1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ((Layer0.final (V1 m ρ) c).trans ?_)
  show Cert.Sage.hidden (W1 m ρ c (Proc.devRef .tc main_arg0)) (W1 m ρ c (Proc.devRef .tc main_v20)) (W1 m ρ c (Proc.devRef .tc main_arg3)) (W1 m ρ c (Proc.devRef .tc main_arg4)) (W1 m ρ c (Proc.devRef .tc main_v21)) = _
  rw [arg_at1 m ρ c main_arg0 (by decide), arg_at1 m ρ c main_arg3 (by decide), arg_at1 m ρ c main_arg4 (by decide), agg_at1, bias_at1]
  rfl

/-- Region 1 leaves layer 1's features. -/
theorem feat2_eq : W4 m ρ c (Proc.devRef .tc main_v36)
    = feat2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Layer1.final (V3 m ρ) c).trans ?_)
  show Cert.Sage.hidden (W3 m ρ c (Proc.devRef .tc main_v22)) (W3 m ρ c (Proc.devRef .tc main_v34)) (W3 m ρ c (Proc.devRef .tc main_arg6)) (W3 m ρ c (Proc.devRef .tc main_arg7)) (W3 m ρ c (Proc.devRef .tc main_v35)) = _
  rw [feat_at3, agg_at3, bias_at3, arg_at3 m ρ c main_arg6 (by decide), arg_at3 m ρ c main_arg7 (by decide),
    arg_at2 m ρ c main_arg1 (by decide), arg_at2 m ρ c main_arg2 (by decide), arg_at2 m ρ c main_arg8 (by decide), dinv_at2, feat1_eq]
  rfl

/-- Region 2 leaves the network's result. -/
theorem result_eq : W6 m ρ c (Proc.devRef .tc main_v50)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Layer2.final (V5 m ρ) c).trans ?_)
  show Cert.Sage.output (W5 m ρ c (Proc.devRef .tc main_v36)) (W5 m ρ c (Proc.devRef .tc main_v48)) (W5 m ρ c (Proc.devRef .tc main_arg9)) (W5 m ρ c (Proc.devRef .tc main_arg10)) (W5 m ρ c (Proc.devRef .tc main_v49)) = _
  rw [feat_at5, agg_at5, bias_at5, arg_at5 m ρ c main_arg9 (by decide), arg_at5 m ρ c main_arg10 (by decide),
    arg_at4 m ρ c main_arg1 (by decide), arg_at4 m ρ c main_arg2 (by decide), arg_at4 m ρ c main_arg11 (by decide), dinv_at4, feat2_eq]
  rfl

end Values

end Cert.KernelIdeal.Walk

end
-- ==== Proof.RefLayers.lean ====
/-
  The reference, layer by layer. Its three `_sage_conv` calls are, entry by entry, the same dense combine step the
  kernel's three regions compute (`Cert.Sage.hidden` twice, `Cert.Sage.output` once): a `dot_general` contracting axis 1
  of the features with axis 0 of a weight matrix is the plain sum over `k`, the two products are added first and the
  broadcast bias row last, and `relu` is the maximum with the zero word. The gather / scatter-add chain that forms
  each layer's mean aggregate is NOT opened: it enters as the stage that holds it.
-/
import proofs.«109799_j62646392979926_1_alg».proof.Proof.Gen.ReferenceIdeal.Read
import proofs.«109799_j62646392979926_1_alg».proof.Proof.Combine

noncomputable section

open Idealize.ShloMosaic Idealize.ShloMosaic.TcCoe Idealize.SL.Sem
open scoped BigOperators

namespace Cert.ReferenceIdeal.Layers

open Cert.ReferenceIdeal Cert.ReferenceIdeal.Gen Cert.ReferenceIdeal.Read

/-! ## The read-at-an-index functions of the reference's products and broadcasts are the specification's -/

theorem lidx_main_v21_eq (i : S50000x128.Idx) (k : Fin 128) : lidx_main_v21 i k = Cert.Sage.featAt i k :=
  funext fun a => by match a with | ⟨0, _⟩ => rfl | ⟨1, _⟩ => rfl
theorem ridx_main_v21_eq (i : S50000x128.Idx) (k : Fin 128) : ridx_main_v21 i k = Cert.Sage.weightAt i k :=
  funext fun a => by match a with | ⟨0, _⟩ => rfl | ⟨1, _⟩ => rfl
theorem lidx_main_v22_eq (i : S50000x128.Idx) (k : Fin 128) : lidx_main_v22 i k = Cert.Sage.featAt i k :=
  funext fun a => by match a with | ⟨0, _⟩ => rfl | ⟨1, _⟩ => rfl
theorem ridx_main_v22_eq (i : S50000x128.Idx) (k : Fin 128) : ridx_main_v22 i k = Cert.Sage.weightAt i k :=
  funext fun a => by match a with | ⟨0, _⟩ => rfl | ⟨1, _⟩ => rfl
theorem idx_main_v25_eq (i : S50000x128.Idx) : idx_main_v25 i = Cert.Sage.biasAt i :=
  funext fun a => by match a with | ⟨0, _⟩ => rfl | ⟨1, _⟩ => rfl
theorem lidx_main_v40_eq (i : S50000x128.Idx) (k : Fin 128) : lidx_main_v40 i k = Cert.Sage.featAt i k :=
  funext fun a => by match a with | ⟨0, _⟩ => rfl | ⟨1, _⟩ => rfl
theorem ridx_main_v40_eq (i : S50000x128.Idx) (k : Fin 128) : ridx_main_v40 i k = Cert.Sage.weightAt i k :=
  funext fun a => by match a with | ⟨0, _⟩ => rfl | ⟨1, _⟩ => rfl
theorem lidx_main_v41_eq (i : S50000x128.Idx) (k : Fin 128) : lidx_main_v41 i k = Cert.Sage.featAt i k :=
  funext fun a => by match a with | ⟨0, _⟩ => rfl | ⟨1, _⟩ => rfl
theorem ridx_main_v41_eq (i : S50000x128.Idx) (k : Fin 128) : ridx_main_v41 i k = Cert.Sage.weightAt i k :=
  funext fun a => by match a with | ⟨0, _⟩ => rfl | ⟨1, _⟩ => rfl
theorem idx_main_v44_eq (i : S50000x128.Idx) : idx_main_v44 i = Cert.Sage.biasAt i :=
  funext fun a => by match a with | ⟨0, _⟩ => rfl | ⟨1, _⟩ => rfl
theorem lidx_main_v59_eq (i : S50000x64.Idx) (k : Fin 128) : lidx_main_v59 i k = Cert.Sage.featAt64 i k :=
  funext fun a => by match a with | ⟨0, _⟩ => rfl | ⟨1, _⟩ => rfl
theorem ridx_main_v59_eq (i : S50000x64.Idx) (k : Fin 128) : ridx_main_v59 i k = Cert.Sage.weightAt64 i k :=
  funext fun a => by match a with | ⟨0, _⟩ => rfl | ⟨1, _⟩ => rfl
theorem lidx_main_v60_eq (i : S50000x64.Idx) (k : Fin 128) : lidx_main_v60 i k = Cert.Sage.featAt64 i k :=
  funext fun a => by match a with | ⟨0, _⟩ => rfl | ⟨1, _⟩ => rfl
theorem ridx_main_v60_eq (i : S50000x64.Idx) (k : Fin 128) : ridx_main_v60 i k = Cert.Sage.weightAt64 i k :=
  funext fun a => by match a with | ⟨0, _⟩ => rfl | ⟨1, _⟩ => rfl
theorem idx_main_v63_eq (i : S50000x64.Idx) : idx_main_v63 i = Cert.Sage.biasAt64 i :=
  funext fun a => by match a with | ⟨0, _⟩ => rfl | ⟨1, _⟩ => rfl

/-! ## The three layers -/

/-- Layer 0: `relu(x @ W_self0 + agg0 @ W_neigh0 + b0)`, the aggregate `agg0` as its stage `val_main_v20`. -/
theorem layer0 (x0 : (⟨S50000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) :
    val_main_v27 (F := Ideal) x0 x1 x2 x3 x4 x5
      = Cert.Sage.hidden x0 (val_main_v20 (F := Ideal) x0 x1 x2) x3 x4 (val_main_v24 (F := Ideal) x5) := by
  funext i
  rw [val_main_v27_apply, val_main_v26_apply, val_main_v23_apply, val_main_v21_apply, val_main_v22_apply, val_main_v25_apply,
    val_main_call0_v0_apply, val_main_call0_cst_apply]
  simp only [lidx_main_v21_eq, ridx_main_v21_eq, lidx_main_v22_eq, ridx_main_v22_eq, idx_main_v25_eq]
  rfl

/-- Layer 1: the same step on layer 0's output `val_main_v27` and its aggregate `val_main_v39`. -/
theorem layer1 (x0 : (⟨S50000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v46 (F := Ideal) x0 x1 x2 x3 x4 x5 x6 x7 x8
      = Cert.Sage.hidden (val_main_v27 (F := Ideal) x0 x1 x2 x3 x4 x5) (val_main_v39 (F := Ideal) x0 x1 x2 x3 x4 x5) x6 x7 (val_main_v43 (F := Ideal) x8) := by
  funext i
  rw [val_main_v46_apply, val_main_v45_apply, val_main_v42_apply, val_main_v40_apply, val_main_v41_apply, val_main_v44_apply,
    val_main_call1_v0_apply, val_main_call1_cst_apply]
  simp only [lidx_main_v40_eq, ridx_main_v40_eq, lidx_main_v41_eq, ridx_main_v41_eq, idx_main_v44_eq]
  rfl

/-- Layer 2: the output step, no maximum, on layer 1's output `val_main_v46` and its aggregate `val_main_v58`. -/
theorem layer2 (x0 : (⟨S50000x128, .f32⟩ : BufTy).Contents (Elt Ideal)) (x1 x2 : (⟨S600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x64, .f32⟩ : BufTy).Contents (Elt Ideal)) (x11 : (⟨S64, .f32⟩ : BufTy).Contents (Elt Ideal)) :
    val_main_v64 (F := Ideal) x0 x1 x2 x3 x4 x5 x6 x7 x8 x9 x10 x11
      = Cert.Sage.output (val_main_v46 (F := Ideal) x0 x1 x2 x3 x4 x5 x6 x7 x8) (val_main_v58 (F := Ideal) x0 x1 x2 x3 x4 x5 x6 x7 x8) x9 x10 (val_main_v62 (F := Ideal) x11) := by
  funext i
  rw [val_main_v64_apply, val_main_v61_apply, val_main_v59_apply, val_main_v60_apply, val_main_v63_apply]
  simp only [lidx_main_v59_eq, ridx_main_v59_eq, lidx_main_v60_eq, ridx_main_v60_eq, idx_main_v63_eq]
  rfl

end Cert.ReferenceIdeal.Layers

end
-- ==== Proof.Bridge.lean ====
/-
  The kernel's program and the reference apply the SAME host operations around their dense steps: the in-degree
  count and its inverse, the gather at the edges' sources, the scatter-add at their targets, the scaling, the bias as
  a row. So the kernel program's named chain (`Net.invDegree`, `Net.meanAgg`) IS the reference's stage holding the
  same value, by the two texts alone and at any float family: nothing is said about what a gather or a scatter-add
  does. Only the bias row differs in spelling, a reshape [n] → [1, n] against a broadcast along a new leading axis:
  both read the vector at the column. With the reference's three layers as the same dense step (`Layers.layer0`,
  `layer1`, `layer2`) the network's result is the reference's last stage, layer by layer from the input up.
-/
import proofs.«109799_j62646392979926_1_alg».proof.Proof.Network
import proofs.«109799_j62646392979926_1_alg».proof.Proof.RefLayers
import Idealize.ShloMosaic.Lib.Pipeline.Value

noncomputable section

open Idealize.ShloMosaic Idealize.ShloMosaic.TcCoe Idealize.SL.Sem

namespace Cert.Bridge

open Cert.KernelIdeal.Net Cert.ReferenceIdeal.Read

section Chain

variable {F : FTy → Type} [FloatOps F]

/-- The inverse in-degree column is the reference's stage %8. -/
theorem invDegree_eq (x2 : (⟨Cert.KernelIdeal.S600000, .i32⟩ : BufTy).Contents (Elt F)) : invDegree (F := F) x2 = val_main_v8 (F := F) x2 := rfl

/-- The mean aggregate of the input features is the reference's stage %20, -/
theorem agg0_eq (x0 : (⟨Cert.KernelIdeal.S50000x128, .f32⟩ : BufTy).Contents (Elt F)) (x1 x2 : (⟨Cert.KernelIdeal.S600000, .i32⟩ : BufTy).Contents (Elt F)) :
    meanAgg (F := F) x0 x1 x2 (val_main_v8 (F := F) x2) = val_main_v20 (F := F) x0 x1 x2 := rfl
/-- of layer 0's features its stage %39, -/
theorem agg1_eq (x0 : (⟨Cert.KernelIdeal.S50000x128, .f32⟩ : BufTy).Contents (Elt F)) (x1 x2 : (⟨Cert.KernelIdeal.S600000, .i32⟩ : BufTy).Contents (Elt F)) (x3 x4 : (⟨Cert.KernelIdeal.S128x128, .f32⟩ : BufTy).Contents (Elt F)) (x5 : (⟨Cert.KernelIdeal.S128, .f32⟩ : BufTy).Contents (Elt F)) :
    meanAgg (F := F) (val_main_v27 (F := F) x0 x1 x2 x3 x4 x5) x1 x2 (val_main_v8 (F := F) x2) = val_main_v39 (F := F) x0 x1 x2 x3 x4 x5 := rfl
/-- of layer 1's features its stage %58. -/
theorem agg2_eq (x0 : (⟨Cert.KernelIdeal.S50000x128, .f32⟩ : BufTy).Contents (Elt F)) (x1 x2 : (⟨Cert.KernelIdeal.S600000, .i32⟩ : BufTy).Contents (Elt F)) (x3 x4 : (⟨Cert.KernelIdeal.S128x128, .f32⟩ : BufTy).Contents (Elt F)) (x5 : (⟨Cert.KernelIdeal.S128, .f32⟩ : BufTy).Contents (Elt F)) (x6 x7 : (⟨Cert.KernelIdeal.S128x128, .f32⟩ : BufTy).Contents (Elt F)) (x8 : (⟨Cert.KernelIdeal.S128, .f32⟩ : BufTy).Contents (Elt F)) :
    meanAgg (F := F) (val_main_v46 (F := F) x0 x1 x2 x3 x4 x5 x6 x7 x8) x1 x2 (val_main_v8 (F := F) x2) = val_main_v58 (F := F) x0 x1 x2 x3 x4 x5 x6 x7 x8 := rfl

/-- A 128-entry vector reshaped to one row is the vector broadcast along a new leading axis: entry (0, q) of both is
    entry q. -/
theorem biasRow_eq (x5 : (⟨Cert.KernelIdeal.S128, .f32⟩ : BufTy).Contents (Elt F)) : biasRow (F := F) x5 = val_main_v24 (F := F) x5 := by
  funext i
  rw [val_main_v24_apply]
  unfold biasRow
  refine shapeCast_apply x5 _ i (idx_main_v24 i) ?_
  rw [Shape.rowMajor_val_one, Shape.rowMajor_val_two]
  show (i 1).val = (i 0).val * 128 + (i 1).val
  have h0 : (i 0).val < 1 := (i 0).isLt
  omega
theorem biasRow_eq' (x8 : (⟨Cert.KernelIdeal.S128, .f32⟩ : BufTy).Contents (Elt F)) : biasRow (F := F) x8 = val_main_v43 (F := F) x8 := by
  funext i
  rw [val_main_v43_apply]
  unfold biasRow
  refine shapeCast_apply x8 _ i (idx_main_v43 i) ?_
  rw [Shape.rowMajor_val_one, Shape.rowMajor_val_two]
  show (i 1).val = (i 0).val * 128 + (i 1).val
  have h0 : (i 0).val < 1 := (i 0).isLt
  omega
theorem biasRow64_eq (x11 : (⟨Cert.KernelIdeal.S64, .f32⟩ : BufTy).Contents (Elt F)) : biasRow64 (F := F) x11 = val_main_v62 (F := F) x11 := by
  funext i
  rw [val_main_v62_apply]
  unfold biasRow64
  refine shapeCast_apply x11 _ i (idx_main_v62 i) ?_
  rw [Shape.rowMajor_val_one, Shape.rowMajor_val_two]
  show (i 1).val = (i 0).val * 64 + (i 1).val
  have h0 : (i 0).val < 1 := (i 0).isLt
  omega

end Chain

/-! ## Layer by layer, at the extended reals -/

theorem feat1_eq (x0 : (⟨Cert.KernelIdeal.S50000x128, .f32⟩ : BufTy).Contents (Elt Ideal)) (x1 x2 : (⟨Cert.KernelIdeal.S600000, .i32⟩ : BufTy).Contents (Elt Ideal)) (x3 x4 : (⟨Cert.KernelIdeal.S128x128, .f32⟩ : BufTy).Contents (Elt Ideal)) (x5 : (⟨Cert.KernelIdeal.S128, .f32⟩ : BufTy).Contents (Elt Ideal)) :
    feat1 x0 x1 x2 x3 x4 x5 = val_main_v27 (F := Ideal) x0 x1 x2 x3 x4 x5 := by
  unfold feat1
  rw [invDegree_eq, agg0_eq, biasRow_eq]
  exact (Cert.ReferenceIdeal.Layers.layer0 x0 x1 x2 x3 x4 x5).symm

theorem feat2_eq (x0 : (⟨Cert.KernelIdeal.S50000x128, .f32⟩ : BufTy).Contents (Elt Ideal)) (x1 x2 : (⟨Cert.KernelIdeal.S600000, .i32⟩ : BufTy).Contents (Elt Ideal)) (x3 x4 : (⟨Cert.KernelIdeal.S128x128, .f32⟩ : BufTy).Contents (Elt Ideal)) (x5 : (⟨Cert.KernelIdeal.S128, .f32⟩ : BufTy).Contents (Elt Ideal)) (x6 x7 : (⟨Cert.KernelIdeal.S128x128, .f32⟩ : BufTy).Contents (Elt Ideal)) (x8 : (⟨Cert.KernelIdeal.S128, .f32⟩ : BufTy).Contents (Elt Ideal)) :
    feat2 x0 x1 x2 x3 x4 x5 x6 x7 x8 = val_main_v46 (F := Ideal) x0 x1 x2 x3 x4 x5 x6 x7 x8 := by
  unfold feat2
  rw [feat1_eq, invDegree_eq, agg1_eq, biasRow_eq']
  exact (Cert.ReferenceIdeal.Layers.layer1 x0 x1 x2 x3 x4 x5 x6 x7 x8).symm

/-- The network's result, as the kernel's program computes it, is the reference's last stage. -/
theorem result_eq (x0 : (⟨Cert.KernelIdeal.S50000x128, .f32⟩ : BufTy).Contents (Elt Ideal)) (x1 x2 : (⟨Cert.KernelIdeal.S600000, .i32⟩ : BufTy).Contents (Elt Ideal)) (x3 x4 : (⟨Cert.KernelIdeal.S128x128, .f32⟩ : BufTy).Contents (Elt Ideal)) (x5 : (⟨Cert.KernelIdeal.S128, .f32⟩ : BufTy).Contents (Elt Ideal)) (x6 x7 : (⟨Cert.KernelIdeal.S128x128, .f32⟩ : BufTy).Contents (Elt Ideal)) (x8 : (⟨Cert.KernelIdeal.S128, .f32⟩ : BufTy).Contents (Elt Ideal)) (x9 x10 : (⟨Cert.KernelIdeal.S128x64, .f32⟩ : BufTy).Contents (Elt Ideal)) (x11 : (⟨Cert.KernelIdeal.S64, .f32⟩ : BufTy).Contents (Elt Ideal)) :
    result x0 x1 x2 x3 x4 x5 x6 x7 x8 x9 x10 x11 = val_main_v64 (F := Ideal) x0 x1 x2 x3 x4 x5 x6 x7 x8 x9 x10 x11 := by
  unfold result
  rw [feat2_eq, invDegree_eq, agg2_eq, biasRow64_eq]
  exact (Cert.ReferenceIdeal.Layers.layer2 x0 x1 x2 x3 x4 x5 x6 x7 x8 x9 x10 x11).symm

end Cert.Bridge

end
-- ==== Proof.lean ====
/-
  A three-layer mean-aggregating graph convolution (50000 nodes, 600000 edges; 128 → 128 → 128 → 64 channels). In each
  layer the irregular part (gather at the edges' sources, scatter-add at their targets, divide by the in-degree) is
  host code, identical in the kernel's program and in the reference; the dense part, h·W_self + agg·W_neigh + b and
  in the hidden layers the maximum with zero, is a pipelined region over ten blocks of 5000 rows in the kernel's
  program and two `dot_general`s with adds in the reference.

  frame_Kernel, frame_KernelIdeal: the generated frame of the three regions among the host stretches.
  frame_ReferenceIdeal: the reference's generated run, its result dropped.
  preserves: the idealization rewrote nothing.
  algebraic: region by region the result array is the layer's function of the five arrays staged
  (`Layer0/1/2.final`: a matmul into a zero accumulator is the plain sum over the contracted axis; the ten row blocks
  cover the array); walked through @main's segments the result is `Net.result` of the twelve arguments
  (`Walk.result_eq`); the reference's last stage is the same function (`Bridge.result_eq`), the shared host chain
  carried as named functions and never opened. Only commutativity and associativity of the extended reals' sum are
  used (inside `Finset.sum`), so the precondition is never opened.
-/
import proofs.«109799_j62646392979926_1_alg».proof.Defs
import proofs.«109799_j62646392979926_1_alg».proof.Proof.Gen.Kernel
import proofs.«109799_j62646392979926_1_alg».proof.Proof.KernelFrame
import proofs.«109799_j62646392979926_1_alg».proof.Proof.Gen.KernelIdeal
import proofs.«109799_j62646392979926_1_alg».proof.Proof.KernelIdealFrame
import proofs.«109799_j62646392979926_1_alg».proof.Proof.KernelValueRun
import proofs.«109799_j62646392979926_1_alg».proof.Proof.Walk
import proofs.«109799_j62646392979926_1_alg».proof.Proof.Bridge
import proofs.«109799_j62646392979926_1_alg».proof.Proof.Gen.ReferenceIdeal
import proofs.«109799_j62646392979926_1_alg».proof.Proof.Gen.ReferenceIdeal.Run
import proofs.«109799_j62646392979926_1_alg».proof.Proof.Gen.ReferenceIdeal.Read
import proofs.«109799_j62646392979926_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network's result of their (agreeing) arguments in the result array. -/
theorem algebraic : Cert.algebraic_KernelIdeal_ReferenceIdeal := by
  intro m ρ m' ρ' _ hagree
  refine ⟨fun c => Cert.KernelIdeal.Net.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Walk.result_eq m ρ c), (h c).2⟩) (Cert.KernelIdeal.Gen.run_result m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v64_eq]
    obtain ⟨a0, a1, a2, a3, a4, a5, a6, a7, a8, a9, a10, a11⟩ := hagree c
    rw [a0, a1, a2, a3, a4, a5, a6, a7, a8, a9, a10, a11]
    exact (Cert.Bridge.result_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
